-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S256x512 : Shape := ⟨2, ![256, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512, .f32⟩
  | .local _ .vmem, ⟨4, _⟩ => ⟨S256x512, .f32⟩
  | .local _ .vmem, ⟨5, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x512.size a
  hwx0_3 : ∀ i : grid0.Coords, EltTy.bits .f32 = 32 ∨ (Rect.block (s := S1024x512) S256x512.size (cc0_transform_3 i) (hinb0_3 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩

abbrev nBuf : Space → Nat
  | .hbm => 8
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024x512, .f32⟩
  | .hbm, ⟨5, _⟩ => ⟨S1x512, .f32⟩
  | .hbm, ⟨6, _⟩ => ⟨S1024x512, .f32⟩
  | .hbm, ⟨7, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  dot_S1024x512_S512x512_S1024x512_1_1_0_0_n_n_wf : DotDims.WF S1024x512 S512x512 S1024x512 [1] [1] [0] [0] [] []

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

class Facts : Prop extends Facts₀ where

variable [Facts]
-- ==== Proof.Interaction.lean ====
/-
  The function both programs compute, on the extended reals.

  For a batch of rows `x : [1024, 512]`, a square weight matrix `W : [512, 512]` and a bias `β : [512]`,
  every row is first sent through the linear map `W` and then multiplied, coordinate by coordinate, with itself:

      pred[b, i] = x[b, i] · (Σ_k x[b, k] · W[i, k]) + β[i].

  The inner sum runs over the SECOND axis of `W`: it is a row of `x` against a row of `W`, that is `x · Wᵀ`.
  No law of the extended reals is needed to compare two programs that both compute this term with the sum taken over
  the same index `k`, so nothing below mentions finiteness.
-/
import Idealize.ShloMosaic.PureOps.Ideal
import Idealize.ShloMosaic.Lib.ValueIdx

noncomputable section

namespace Cert.Interaction

open Idealize.ShloMosaic Idealize.ShloMosaic.ValueIdx

/-- The batch of rows, and the result: 1024 rows of 512 coordinates. -/
abbrev Rows : Shape := ⟨2, ![1024, 512]⟩
/-- The square weight matrix. -/
abbrev Weights : Shape := ⟨2, ![512, 512]⟩
/-- The bias, one entry per coordinate. -/
abbrev Bias : Shape := ⟨1, ![512]⟩

/-- Row `b` of `x` against row `i` of `W`: entry `(b, i)` of `x · Wᵀ`. -/
def linear (x : FVec Ideal Rows .f32) (w : FVec Ideal Weights .f32) (b : Fin 1024) (i : Fin 512) : EReal :=
  ∑ k : Fin 512, x (ix2 b k) * w (ix2 i k)

/-- `pred[b, i] = x[b, i] · (x · Wᵀ)[b, i] + β[i]`, at every index of the result. -/
def pred (x : FVec Ideal Rows .f32) (w : FVec Ideal Weights .f32) (β : FVec Ideal Bias .f32) : FVec Ideal Rows .f32 :=
  fun j => x j * linear x w (j 0) (j 1) + β (ix1 (j 1))

/-- The same at an index given by its two coordinates. -/
theorem pred_ix2 (x : FVec Ideal Rows .f32) (w : FVec Ideal Weights .f32) (β : FVec Ideal Bias .f32) (b : Fin 1024) (i : Fin 512) :
    pred x w β (ix2 b i) = x (ix2 b i) * linear x w b i + β (ix1 i) := rfl

end Cert.Interaction

end
-- ==== Proof.ReferenceValue.lean ====
/-
  The reference computes `Interaction.pred`.

  Its five host operations are: the product `x · Wᵀ` as a `dot_general` contracting the second axis of both operands,
  the pointwise product with `x`, the bias laid out as one row and that row repeated over the 1024 rows, and the
  final sum. Read at an index `(b, i)` they give `x[b, i] · (Σ_k x[b, k] · W[i, k]) + β[i]`, which is `pred` by
  definition: the contraction is already indexed by the coordinate `k` of the common second axis.
-/
import proofs.«147899_j1700807049321_1_alg».proof.Proof.Gen.ReferenceIdeal.Read
import proofs.«147899_j1700807049321_1_alg».proof.Proof.Interaction

noncomputable section

namespace Cert.ReferenceIdeal.RefValue

open Cert.ReferenceIdeal Cert.ReferenceIdeal.Read Idealize.ShloMosaic Idealize.ShloMosaic.ValueIdx

/-- The left operand of the contraction at `(b, i)` and position `k` is `x[b, k]`. -/
theorem left_index (j : S1024x512.Idx) (k : Fin 512) : lidx_main_v0 j k = ix2 (j 0) k :=
  funext fun a => Fin.ext (by match a with | ⟨0, _⟩ => rfl | ⟨1, _⟩ => rfl)

/-- The right operand there is `W[i, k]`: the reference contracts the SECOND axis of `W`. -/
theorem right_index (j : S1024x512.Idx) (k : Fin 512) : ridx_main_v0 j k = ix2 (j 1) k :=
  funext fun a => Fin.ext (by match a with | ⟨0, _⟩ => rfl | ⟨1, _⟩ => rfl)

/-- The bias, laid out as a row and repeated over the rows, read at `(b, i)` is `β[i]`. -/
theorem bias_index (j : S1024x512.Idx) : idx_main_v2 (idx_main_v3 j) = ix1 (j 1) :=
  funext fun a => Fin.ext (by match a with | ⟨0, _⟩ => rfl)

/-- The reference's last stage is `pred` of its three arguments. -/
theorem result_eq (x : FVec Ideal S1024x512 .f32) (w : FVec Ideal S512x512 .f32) (β : FVec Ideal S512 .f32) :
    val_main_v4 (F := Ideal) x w β = Cert.Interaction.pred x w β := by
  funext j
  rw [val_main_v4_apply, val_main_v1_apply, val_main_v0_apply, val_main_v3_apply, val_main_v2_apply]
  simp only [left_index, right_index, bias_index]
  rfl

end Cert.ReferenceIdeal.RefValue

end
-- ==== Proof.BlockValue.lean ====
/-
  What the kernel body stores for one block of 256 rows, entry by entry.

  The body loads a block `xb : [256, 512]` of rows, the whole matrix `W` and the whole bias `β`, and stores

      xb · (xb ⬝ Wᵀ) + β      (`·` pointwise, `⬝` the matrix product into a zero accumulator, `β` repeated over the rows).

  On the extended reals the matrix product into zero is the plain sum over the contracted axis; that axis is the second
  of `xb` and the first of `Wᵀ`, and `Wᵀ[k, q] = W[q, k]`. So entry `(p, q)` of the stored block is

      xb[p, q] · (Σ_k xb[p, k] · W[q, k]) + β[q].
-/
import proofs.«147899_j1700807049321_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The operand indices of the block's matrix product

The product contracts axis 1 of its left operand with axis 0 of its right operand; the result's rows are the left
operand's, its columns the right operand's. -/

theorem lhs_row (j : S256x512.Idx) (s : dot_S256x512_S512x512_S256x512_1_0_0_1_n_n.contr.Idx) :
    (dot_S256x512_S512x512_S256x512_1_0_0_1_n_n.lhsIdx j s 0).val = (j 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_contracted (j : S256x512.Idx) (s : dot_S256x512_S512x512_S256x512_1_0_0_1_n_n.contr.Idx) :
    (dot_S256x512_S512x512_S256x512_1_0_0_1_n_n.lhsIdx j s 1).val = (s ⟨0, by decide⟩).val :=
  dot_S256x512_S512x512_S256x512_1_0_0_1_n_n.lhsIdx_val_of_single rfl j s
theorem rhs_contracted (j : S256x512.Idx) (s : dot_S256x512_S512x512_S256x512_1_0_0_1_n_n.contr.Idx) :
    (dot_S256x512_S512x512_S256x512_1_0_0_1_n_n.rhsIdx j s 0).val = (s ⟨0, by decide⟩).val :=
  dot_S256x512_S512x512_S256x512_1_0_0_1_n_n.rhsIdx_val_of_single rfl j s
theorem rhs_column (j : S256x512.Idx) (s : dot_S256x512_S512x512_S256x512_1_0_0_1_n_n.contr.Idx) :
    (dot_S256x512_S512x512_S256x512_1_0_0_1_n_n.rhsIdx j s 1).val = (j 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The block's matrix product into the zero accumulator, at `(p, q)`: row `p` of the left operand against column
    `q` of the right operand, summed over the 512 positions of the contracted axis. -/
theorem product_apply (a : FVec Ideal S256x512 .f32) (b : FVec Ideal S512x512 .f32) (p : Fin 256) (q : Fin 512) :
    matmul dot_S256x512_S512x512_S256x512_1_0_0_1_n_n none a b (constant (F := Ideal) S256x512 .f32 0x00000000#32) (ix2 p q)
      = ∑ k : Fin 512, a (ix2 p k) * b (ix2 k q) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p q) ((contrEquiv1 dot_S256x512_S512x512_S256x512_1_0_0_1_n_n 512 rfl rfl).symm k) = ix2 p k := funext fun ax => Fin.ext (by
    match ax with
    | ⟨0, _⟩ => exact lhs_row _ _
    | ⟨1, _⟩ => exact (lhs_contracted _ _).trans hk)
  have er : dot_S256x512_S512x512_S256x512_1_0_0_1_n_n.rhsIdx (ix2 p q) ((contrEquiv1 dot_S256x512_S512x512_S256x512_1_0_0_1_n_n 512 rfl rfl).symm k) = ix2 k q := funext fun ax => Fin.ext (by
    match ax with
    | ⟨0, _⟩ => exact (rhs_contracted _ _).trans hk
    | ⟨1, _⟩ => exact rhs_column _ _)
  rw [el, er]

/-- The stored block as the body's operations on its three loads. -/
theorem stored_eq (xb : FVec Ideal S256x512 .f32) (w : FVec Ideal S512x512 .f32) (β : FVec Ideal S512 .f32) :
    k0_pay1 (F := Ideal) xb w β
      = addf (mulf xb (matmul dot_S256x512_S512x512_S256x512_1_0_0_1_n_n none xb (transpose S512x512 [1, 0] w Facts₀.transposes_S512x512_p1_0_S512x512)
          (constant (F := Ideal) S256x512 .f32 0x00000000#32)))
        (broadcastTo S256x512 (shapeCast S1x512 β Facts₀.shapeCasts_S512_S1x512) Facts₀.broadcasts_S1x512_S256x512) := rfl

/-- Entry `(p, q)` of the stored block: `xb[p, q] · (Σ_k xb[p, k] · W[q, k]) + β[q]`. -/
theorem stored_apply (xb : FVec Ideal S256x512 .f32) (w : FVec Ideal S512x512 .f32) (β : FVec Ideal S512 .f32) (p : Fin 256) (q : Fin 512) :
    k0_pay1 (F := Ideal) xb w β (ix2 p q) = xb (ix2 p q) * (∑ k : Fin 512, xb (ix2 p k) * w (ix2 q k)) + β (ix1 q) := by
  rw [stored_eq, addf_apply, mulf_apply, product_apply, broadcastTo_1b_ab_apply, shapeCast_a_1a_apply]
  refine congrArg (fun s => xb (ix2 p q) * s + β (ix1 q)) (Finset.sum_congr rfl fun k _ => ?_)
  exact congrArg (xb (ix2 p k) * ·) (transpose_ix2_apply w _ k q)

end Cert.KernelIdeal.BlockValue

end
-- ==== Proof.ArrayValue.lean ====
/-
  From the four blocks to the whole result array.

  The grid has four points; point `t` stages rows `256·t … 256·t + 255` of `x`, the whole of `W` and of `β`, and
  writes back rows `256·t … 256·t + 255` of the result. By the block's value (BlockValue) the entry `(p, q)` it writes
  is `xb[p, q] · (Σ_k xb[p, k] · W[q, k]) + β[q]` with `xb[p, ·] = x[256·t + p, ·]`, which is `pred x W β` at
  `(256·t + p, q)`: what point `t` writes back is block `t` of `pred`. Row `r` lies in the block of point `r / 256`,
  so the four blocks cover the array and it ends holding `pred` of the argument arrays.
-/
import proofs.«147899_j1700807049321_1_alg».proof.Proof.Gen.KernelIdeal.Value
import proofs.«147899_j1700807049321_1_alg».proof.Proof.BlockValue
import proofs.«147899_j1700807049321_1_alg».proof.Proof.Interaction

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.Interaction (pred linear pred_ix2)

/-! ## One block, against `pred` -/

/-- A block whose rows are rows `row p` of `x`, beside the whole of `W` and `β`: the body stores `pred x W β` at
    `(row p, q)`. -/
theorem stored_is_pred (x : FVec Ideal S1024x512 .f32) (w : FVec Ideal S512x512 .f32) (β : FVec Ideal S512 .f32)
    (xb : FVec Ideal S256x512 .f32) (wb : FVec Ideal S512x512 .f32) (βb : FVec Ideal S512 .f32) (row : Fin 256 → Fin 1024)
    (hx : ∀ (p : Fin 256) (k : Fin 512), xb (ix2 p k) = x (ix2 (row p) k))
    (hw : ∀ (a b : Fin 512), wb (ix2 a b) = w (ix2 a b)) (hβ : ∀ a : Fin 512, βb (ix1 a) = β (ix1 a))
    (p : Fin 256) (q : Fin 512) :
    k0_pay1 (F := Ideal) xb wb βb (ix2 p q) = pred x w β (ix2 (row p) q) := by
  rw [BlockValue.stored_apply, pred_ix2, hx, hβ]
  unfold linear
  simp only [hx, hw]

variable (m : (ℓ : Loc nD τ sig) → Buf (Elt Ideal) ℓ) (ρ : Dev nD → PrngReg)

/-! ## What a point writes back -/

theorem offsets2 : (![0, 0] : Fin 2 → Nat) = fun _ => 0 := funext fun a => by fin_cases a <;> rfl
theorem offsets1 : (![0] : Fin 1 → Nat) = fun _ => 0 := funext fun a => by fin_cases a <;> rfl

/-- The index maps over the four grid points: the rows' and the result's block index is the point, every other is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The result the whole run computes, of the argument arrays as the region finds them. -/
abbrev result (c : Dev nD) : FVec Ideal S1024x512 .f32 :=
  pred (V m c main_arg0) (V m c main_arg1) (V m c main_arg2)

/-- WHAT POINT `t` WRITES BACK is block `t` of `pred` of the argument arrays. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero offsets2]
  simp only [View.ld_unit_zero (S := S256x512) offsets2, View.ld_unit_zero (S := S512x512) offsets2, View.ld_unit_zero (S := S512) offsets1]
  obtain ⟨e00, e01, e10, e11, e20, e30, e31⟩ := index_facts t
  have ht : t.val < 4 := t.isLt
  funext j
  obtain ⟨p, q, rfl⟩ : ∃ (p : Fin 256) (q : Fin 512), j = ix2 p q := ⟨j 0, j 1, eq_ix2 j⟩
  show k0_pay1 (F := Ideal) (iblk m c 0 t) (iblk m c 1 t) (iblk m c 2 t) (ix2 p q) = result m c (((cfg0.win 3).blk t).view.emb (ix2 p q))
  refine (stored_is_pred (V m c main_arg0) (V m c main_arg1) (V m c main_arg2) (iblk m c 0 t) (iblk m c 1 t) (iblk m c 2 t)
    (fun p => ⟨t.val * 256 + p.val, by have := p.isLt; omega⟩) ?_ ?_ ?_ p q).trans ?_
  · intro p k
    show V m c main_arg0 (((cfg0.win 0).blk t).view.emb (ix2 p k)) = _
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 512 + 1 * k.val = k.val; omega
  · intro a b
    show V m c main_arg1 (((cfg0.win 1).blk t).view.emb (ix2 a b)) = _
    refine congrArg _ (funext fun ax => Fin.ext ?_)
    match ax with
    | ⟨0, _⟩ => show win0_1.index t (0 : Fin 2) * 512 + 1 * a.val = a.val; omega
    | ⟨1, _⟩ => show win0_1.index t (1 : Fin 2) * 512 + 1 * b.val = b.val; omega
  · intro a
    show V m c main_arg2 (((cfg0.win 2).blk t).view.emb (ix1 a)) = _
    refine congrArg _ (funext fun ax => Fin.ext ?_)
    match ax with
    | ⟨0, _⟩ => show win0_2.index t (0 : Fin 1) * 512 + 1 * a.val = a.val; omega
  · refine congrArg (result m c) (funext fun a => Fin.ext ?_)
    match a with
    | ⟨0, _⟩ => show t.val * 256 + p.val = win0_3.index t (0 : Fin 2) * 256 + 1 * p.val; omega
    | ⟨1, _⟩ => show q.val = win0_3.index t (1 : Fin 2) * 512 + 1 * q.val; omega

/-! ## The blocks cover the array -/

/-- An index of the result is in point `t`'s block iff each coordinate is in the block's range on its axis. -/
theorem mem_block (t : Fin cfg0.N) (i : S1024x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v0).slice (win0_3.rect t)).set ↔ _
  rw [View.set_slice_whole, Rect.mem_set_unit]
  exact Iff.rfl

/-- Row `r` of the result is written back by point `r / 256`. -/
theorem covered (i : S1024x512.Idx) : ∃ t : Fin cfg0.N, (cfg0.win 3).flush t = true ∧ i ∈ ((cfg0.win 3).blk t).view.set := by
  have hi0 : (i 0).val < 1024 := (i 0).isLt
  have hi1 : (i 1).val < 512 := (i 1).isLt
  obtain ⟨t, ht⟩ : ∃ t : Fin cfg0.N, t.val = (i 0).val / 256 :=
    ⟨⟨(i 0).val / 256, by show (i 0).val / 256 < 4; omega⟩, rfl⟩
  obtain ⟨-, -, -, -, -, e30, e31⟩ := index_facts t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- THE RESULT ARRAY after the run is `pred` of the argument arrays. -/
theorem final (c : Dev nD) : (dats m 0 c).arrAt 3 cfg0.N = result m c :=
  (dats m 0 c).arrAt_eq_of_cover 3 (result m c) (fun t _ => flushed_eq m c t) covered

/-! ## The run, read -/

/-- Every weakly fair execution of the kernel's program ends with the result array at `pred` of the argument arrays
    as launched, and the arguments unchanged. -/
theorem run : θ_run defs (onTc (τ := τ) (main (F := Ideal))) ⟨m, fun _ => 0, ρ⟩ fun r => ∀ c : Dev nD,
      r.2.mem ((c : Thread nD τ).loc main_v0) = pred (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A fully interacted linear predictor: for rows `x : [1024, 512]`, a weight matrix `W : [512, 512]` and a bias
  `β : [512]`,

      pred[b, i] = x[b, i] · (Σ_k x[b, k] · W[i, k]) + β[i].

  The kernel cuts the rows into four blocks of 256, and for each block multiplies it by `Wᵀ` (a matrix product into a
  zero accumulator), multiplies the product pointwise with the block and adds the bias repeated over the rows. The
  reference contracts the second axis of `x` with the second axis of `W` in one `dot_general`, multiplies by `x` and
  adds the bias laid out over the rows. On the extended reals both are the term above, with the inner sum over the same
  index `k` in the same order, so they are equal by definition once each side is read at an index: no law of the extended
  reals is used and the inputs' finiteness is never opened.

    * `Proof/Interaction.lean`     — `pred`, the common function.
    * `Proof/ReferenceValue.lean`  — the reference's five operations, read at an index, are `pred`.
    * `Proof/BlockValue.lean`      — the entry `(p, q)` the kernel body stores for a block.
    * `Proof/ArrayValue.lean`      — point `t` writes back block `t` of `pred`; the four blocks cover the array.

  The three programs run, without a fault and leaving their arguments unchanged, by the frame of the kernel's pipeline
  (at the word level and on the extended reals) and by the reference's run. The idealized kernel is the kernel's own text
  read on the extended reals: no operation was rewritten, so there is nothing to preserve.
-/
import proofs.«147899_j1700807049321_1_alg».proof.Defs
import proofs.«147899_j1700807049321_1_alg».proof.Proof.Gen.Kernel
import proofs.«147899_j1700807049321_1_alg».proof.Proof.Gen.Kernel.Skeleton
import proofs.«147899_j1700807049321_1_alg».proof.Proof.Gen.Kernel.Launch
import proofs.«147899_j1700807049321_1_alg».proof.Proof.Gen.Kernel.Points
import proofs.«147899_j1700807049321_1_alg».proof.Proof.Gen.Kernel.Frame
import proofs.«147899_j1700807049321_1_alg».proof.Proof.Gen.KernelIdeal
import proofs.«147899_j1700807049321_1_alg».proof.Proof.Gen.KernelIdeal.Skeleton
import proofs.«147899_j1700807049321_1_alg».proof.Proof.Gen.KernelIdeal.Launch
import proofs.«147899_j1700807049321_1_alg».proof.Proof.Gen.KernelIdeal.Points
import proofs.«147899_j1700807049321_1_alg».proof.Proof.Gen.KernelIdeal.Frame
import proofs.«147899_j1700807049321_1_alg».proof.Proof.Gen.ReferenceIdeal
import proofs.«147899_j1700807049321_1_alg».proof.Proof.Gen.Pre_finite_inputs
import proofs.«147899_j1700807049321_1_alg».proof.Proof.Gen.KernelIdeal.Value
import proofs.«147899_j1700807049321_1_alg».proof.Proof.Gen.ReferenceIdeal.Run
import proofs.«147899_j1700807049321_1_alg».proof.Proof.Gen.ReferenceIdeal.Read
import proofs.«147899_j1700807049321_1_alg».proof.Proof.ReferenceValue
import proofs.«147899_j1700807049321_1_alg».proof.Proof.ArrayValue
import Idealize.ShloMosaic.Adequacy
import Idealize.ShloMosaic.Init

noncomputable section

namespace Cert.Proof

open Idealize.ShloMosaic Idealize.SL.Sem

/-- The kernel at the word level runs and keeps its arguments: the frame of its pipeline. -/
theorem frame_kernel : Cert.frame_Kernel := fun m ρ _ => Cert.Kernel.Gen.frame m ρ

/-- The same on the extended reals. -/
theorem frame_kernelIdeal : Cert.frame_KernelIdeal := fun m ρ _ => Cert.KernelIdeal.Gen.frame m ρ

/-- The reference runs and keeps its arguments: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on `x`, `W` and `β`, both programs end with the result array at `pred x W β`:
    the kernel's by its four blocks, the reference's by its operations read at an index. -/
theorem algebraic : Cert.algebraic_KernelIdeal_ReferenceIdeal := by
  intro m ρ m' ρ' _ hagree
  refine ⟨fun c => Cert.Interaction.pred (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
